-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x64x64 : Shape := ⟨3, ![4, 64, 64]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S4x64x64 .f32) (main_arg2 : FVec F S4x64x64 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64x64 .f32 := Host.absf main_arg2
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4x64x64 : Shape := ⟨3, ![4, 64, 64]⟩
abbrev S4096 : Shape := ⟨1, ![4096]⟩
abbrev S64x64x4 : Shape := ⟨3, ![64, 64, 4]⟩
abbrev S64x256 : Shape := ⟨2, ![64, 256]⟩
abbrev S64x4x64 : Shape := ⟨3, ![64, 4, 64]⟩
abbrev S1x4096 : Shape := ⟨2, ![1, 4096]⟩
abbrev S8192x64x64 : Shape := ⟨3, ![8192, 64, 64]⟩
abbrev S8192x4096 : Shape := ⟨2, ![8192, 4096]⟩
abbrev S128x64x64 : Shape := ⟨3, ![128, 64, 64]⟩
abbrev S128x4096 : Shape := ⟨2, ![128, 4096]⟩
abbrev S8192x64 : Shape := ⟨2, ![8192, 64]⟩
abbrev S64x1x64 : Shape := ⟨3, ![64, 1, 64]⟩
abbrev S64x64 : Shape := ⟨2, ![64, 64]⟩
abbrev S1x64x64 : Shape := ⟨3, ![1, 64, 64]⟩

abbrev nBuf : Space → Nat
  | .hbm => 13
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4x64x64, .f32⟩
  | .hbm, ⟨2, _⟩ => ⟨S4x64x64, .f32⟩
  | .hbm, ⟨3, _⟩ => ⟨S4096, .f32⟩
  | .hbm, ⟨4, _⟩ => ⟨S64x64x4, .f32⟩
  | .hbm, ⟨5, _⟩ => ⟨S64x256, .f32⟩
  | .hbm, ⟨6, _⟩ => ⟨S64x4x64, .f32⟩
  | .hbm, ⟨7, _⟩ => ⟨S64x4x64, .bf16⟩
  | .hbm, ⟨8, _⟩ => ⟨S4x64x64, .bf16⟩
  | .hbm, ⟨9, _⟩ => ⟨S1x4096, .f32⟩
  | .hbm, ⟨10, _⟩ => ⟨S8192x64x64, .f32⟩
  | .hbm, ⟨11, _⟩ => ⟨S8192x4096, .f32⟩
  | .hbm, ⟨12, _⟩ => ⟨S4x2048x4096, .f32⟩
  | .local _ .vmem, ⟨0, _⟩ => ⟨S128x64x64, .f32⟩
  | .local _ .vmem, ⟨1, _⟩ => ⟨S128x64x64, .f32⟩
  | .local _ .vmem, ⟨2, _⟩ => ⟨S64x4x64, .bf16⟩
  | .local _ .vmem, ⟨3, _⟩ => ⟨S4x64x64, .bf16⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S4x64x64_S64x64x4_1_2_0 : S4x64x64.Transposes [1, 2, 0] S64x64x4
  shapeCasts_S64x64x4_S64x256 : S64x64x4.ShapeCasts S64x256
  shapeCasts_S64x256_S64x4x64 : S64x256.ShapeCasts S64x4x64
  bitsLt_bf16_f32 : FTy.bits .bf16 < FTy.bits .f32
  shapeCasts_S4096_S1x4096 : S4096.ShapeCasts S1x4096
  shapeCasts_S4x2048x4096_S8192x64x64 : S4x2048x4096.ShapeCasts S8192x64x64
  inb_S128x64x64_S128x64x64_0_0_0 : ∀ a, (![0, 0, 0] : Fin 3 → Nat) a + S128x64x64.size a ≤ S128x64x64.size a
  h_S128x64x64 : 0 < S128x64x64.numel
  shapeCasts_S128x64x64_S128x64x64 : S128x64x64.ShapeCasts S128x64x64
  shapeCasts_S128x64x64_S8192x64 : S128x64x64.ShapeCasts S8192x64
  inb_S64x4x64_S64x4x64_0_0_0 : ∀ a, (![0, 0, 0] : Fin 3 → Nat) a + S64x4x64.size a ≤ S64x4x64.size a
  h_S64x4x64 : 0 < S64x4x64.numel
  shapeCasts_S64x4x64_S64x4x64 : S64x4x64.ShapeCasts S64x4x64
  inb_S4x64x64_S4x64x64_0_0_0 : ∀ a, (![0, 0, 0] : Fin 3 → Nat) a + S4x64x64.size a ≤ S4x64x64.size a
  h_S4x64x64 : 0 < S4x64x64.numel
  shapeCasts_S4x64x64_S4x64x64 : S4x64x64.ShapeCasts S4x64x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  slices_S64x4x64_o0_0_0_S64x1x64 : S64x4x64.Slices ![0, 0, 0] S64x1x64
  shapeCasts_S64x1x64_S64x64 : S64x1x64.ShapeCasts S64x64
  shapeCasts_S8192x64_S128x64x64 : S8192x64.ShapeCasts S128x64x64
  transposes_S128x64x64_p0_2_1_S128x64x64 : S128x64x64.Transposes [0, 2, 1] S128x64x64
  slices_S4x64x64_o0_0_0_S1x64x64 : S4x64x64.Slices ![0, 0, 0] S1x64x64
  shapeCasts_S1x64x64_S64x64 : S1x64x64.ShapeCasts S64x64
  slices_S64x4x64_o0_1_0_S64x1x64 : S64x4x64.Slices ![0, 1, 0] S64x1x64
  slices_S4x64x64_o1_0_0_S1x64x64 : S4x64x64.Slices ![1, 0, 0] S1x64x64
  slices_S64x4x64_o0_2_0_S64x1x64 : S64x4x64.Slices ![0, 2, 0] S64x1x64
  slices_S4x64x64_o2_0_0_S1x64x64 : S4x64x64.Slices ![2, 0, 0] S1x64x64
  slices_S64x4x64_o0_3_0_S64x1x64 : S64x4x64.Slices ![0, 3, 0] S64x1x64
  slices_S4x64x64_o3_0_0_S1x64x64 : S4x64x64.Slices ![3, 0, 0] S1x64x64
  shapeCasts_S128x64x64_S128x4096 : S128x64x64.ShapeCasts S128x4096
  broadcasts_S1x4096_S128x4096 : S1x4096.Broadcasts S128x4096
  inb_S128x4096_S128x4096_0_0 : ∀ a, (![0, 0] : Fin 2 → Nat) a + S128x4096.size a ≤ S128x4096.size a
  h_S128x4096 : 0 < S128x4096.numel
  shapeCasts_S8192x4096_S4x2048x4096 : S8192x4096.ShapeCasts S4x2048x4096
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4x64.size a ≤ S64x4x64.size a
  hwx0_1 : ∀ i : grid0.Coords, EltTy.bits .bf16 = 32 ∨ (Rect.block (s := S64x4x64) S64x4x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .bf16 = 32 ∨ (Rect.block (s := S4x64x64) S4x64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S8192x4096.size a
  hwx0_4 : ∀ i : grid0.Coords, EltTy.bits .f32 = 32 ∨ (Rect.block (s := S8192x4096) S128x4096.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v6) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4x64x64 : Shape := ⟨3, ![4, 64, 64]⟩
abbrev S4096 : Shape := ⟨1, ![4096]⟩
abbrev S8192x64x64 : Shape := ⟨3, ![8192, 64, 64]⟩
abbrev S64x64x4 : Shape := ⟨3, ![64, 64, 4]⟩
abbrev S64x256 : Shape := ⟨2, ![64, 256]⟩
abbrev S8192x64x256 : Shape := ⟨3, ![8192, 64, 256]⟩
abbrev S8192x64x4x64 : Shape := ⟨4, ![8192, 64, 4, 64]⟩
abbrev S4x8192x64x64 : Shape := ⟨4, ![4, 8192, 64, 64]⟩
abbrev S4x524288x64 : Shape := ⟨3, ![4, 524288, 64]⟩
abbrev S_ : Shape := ⟨0, ![]⟩
abbrev S524288x64 : Shape := ⟨2, ![524288, 64]⟩
abbrev S8192x4096 : Shape := ⟨2, ![8192, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x64x64, .f32⟩
  | .hbm, ⟨2, _⟩ => ⟨S4x64x64, .f32⟩
  | .hbm, ⟨3, _⟩ => ⟨S4096, .f32⟩
  | .hbm, ⟨4, _⟩ => ⟨S8192x64x64, .f32⟩
  | .hbm, ⟨5, _⟩ => ⟨S64x64x4, .f32⟩
  | .hbm, ⟨6, _⟩ => ⟨S64x256, .f32⟩
  | .hbm, ⟨7, _⟩ => ⟨S8192x64x256, .f32⟩
  | .hbm, ⟨8, _⟩ => ⟨S8192x64x4x64, .f32⟩
  | .hbm, ⟨9, _⟩ => ⟨S4x8192x64x64, .f32⟩
  | .hbm, ⟨10, _⟩ => ⟨S4x524288x64, .f32⟩
  | .hbm, ⟨11, _⟩ => ⟨S4x524288x64, .f32⟩
  | .hbm, ⟨12, _⟩ => ⟨S_, .f32⟩
  | .hbm, ⟨13, _⟩ => ⟨S524288x64, .f32⟩
  | .hbm, ⟨14, _⟩ => ⟨S8192x64x64, .f32⟩
  | .hbm, ⟨15, _⟩ => ⟨S8192x64x64, .f32⟩
  | .hbm, ⟨16, _⟩ => ⟨S8192x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S4x2048x4096_S8192x64x64 : S4x2048x4096.ShapeCasts S8192x64x64
  transposes_S4x64x64_S64x64x4_1_2_0 : S4x64x64.Transposes [1, 2, 0] S64x64x4
  shapeCasts_S64x64x4_S64x256 : S64x64x4.ShapeCasts S64x256
  shapeCasts_S8192x64x256_S8192x64x4x64 : S8192x64x256.ShapeCasts S8192x64x4x64
  transposes_S8192x64x4x64_S4x8192x64x64_2_0_3_1 : S8192x64x4x64.Transposes [2, 0, 3, 1] S4x8192x64x64
  shapeCasts_S4x8192x64x64_S4x524288x64 : S4x8192x64x64.ShapeCasts S4x524288x64
  reducesTo_S4x524288x64_S524288x64_d0 : S4x524288x64.ReducesTo [0] S524288x64
  h_S_ : 0 < S_.numel
  shapeCasts_S524288x64_S8192x64x64 : S524288x64.ShapeCasts S8192x64x64
  transposes_S8192x64x64_S8192x64x64_0_2_1 : S8192x64x64.Transposes [0, 2, 1] S8192x64x64
  shapeCasts_S8192x64x64_S8192x4096 : S8192x64x64.ShapeCasts S8192x4096
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S8192x64x64_S64x256_S8192x64x256_2_0_01_1_n_n_wf : DotDims.WF S8192x64x64 S64x256 S8192x64x256 [2] [0] [0, 1] [1] [] []
  dot_S4x524288x64_S4x64x64_S4x524288x64_2_1_1_2_0_0_wf : DotDims.WF S4x524288x64 S4x64x64 S4x524288x64 [2] [1] [1] [2] [0] [0]

variable [Facts₀]

def dot_S8192x64x64_S64x256_S8192x64x256_2_0_01_1_n_n : DotDims S8192x64x64 S64x256 S8192x64x256 where
  lhsContracting := [2]
  rhsContracting := [0]
  lhsNonContracting := [0, 1]
  rhsNonContracting := [1]
  lhsBatch := []
  rhsBatch := []
  wf := dot_S8192x64x64_S64x256_S8192x64x256_2_0_01_1_n_n_wf
def dot_S4x524288x64_S4x64x64_S4x524288x64_2_1_1_2_0_0 : DotDims S4x524288x64 S4x64x64 S4x524288x64 where
  lhsContracting := [2]
  rhsContracting := [1]
  lhsNonContracting := [1]
  rhsNonContracting := [2]
  lhsBatch := [0]
  rhsBatch := [0]
  wf := dot_S4x524288x64_S4x64x64_S4x524288x64_2_1_1_2_0_0_wf

class Facts : Prop extends Facts₀ where

variable [Facts]
-- ==== Proof.KronSpec.lean ====
/-
  The function both programs compute, stated once over plain extended-real arrays.

  A row of the input is a 64 x 64 matrix `row a b`. The second factor arrives as a 64 x 4 x 64 array
  `W b r c` (one 64 x 64 matrix per rank `r`), the first as a 4 x 64 x 64 array `A r a c2`. For each rank
  the row is multiplied on the right by `W · r ·` (contracting `b`), the product is transposed, and
  multiplied on the right by `A r · ·` (contracting `a`); the four ranks are added:

      mix row W A c2 c = ∑ r, ∑ a, (∑ b, row a b * W b r c) * A r a c2 .

  The output row has 4096 features `f = c2 * 64 + c`, and a bias is added per feature.
-/
import Idealize.ShloMosaic.PureOps.Ideal
import Idealize.ShloMosaic.Lib.ValueIdx

noncomputable section

namespace Cert.Kron

open Idealize.ShloMosaic Idealize.ShloMosaic.ValueIdx
open scoped BigOperators

/-- The two contractions and the sum over the four ranks, for one input row. -/
def mix (row : Fin 64 → Fin 64 → EReal) (W : (⟨3, ![64, 4, 64]⟩ : Shape).Idx → EReal)
    (A : (⟨3, ![4, 64, 64]⟩ : Shape).Idx → EReal) (c2 c : Fin 64) : EReal :=
  ∑ r : Fin 4, ∑ a : Fin 64, (∑ b : Fin 64, row a b * W (ix3 b r c)) * A (ix3 r a c2)

/-- A feature index `f < 4096` split as `f = hi * 64 + lo`. -/
def hi (f : Fin 4096) : Fin 64 := ⟨f.val / 64, by have := f.isLt; omega⟩
def lo (f : Fin 4096) : Fin 64 := ⟨f.val % 64, Nat.mod_lt _ (by decide)⟩

/-- The whole result as an 8192 x 4096 matrix: row `n` of the input (an 8192 x 64 x 64 array) mixed, plus the bias
    (a 1 x 4096 array) at the feature. -/
def flat (X : (⟨3, ![8192, 64, 64]⟩ : Shape).Idx → EReal) (W : (⟨3, ![64, 4, 64]⟩ : Shape).Idx → EReal)
    (A : (⟨3, ![4, 64, 64]⟩ : Shape).Idx → EReal) (bias : (⟨2, ![1, 4096]⟩ : Shape).Idx → EReal) :
    (⟨2, ![8192, 4096]⟩ : Shape).Idx → EReal := fun i =>
  mix (fun a b => X (ix3 (i 0) a b)) W A (hi (i 1)) (lo (i 1)) + bias (ix2 (0 : Fin 1) (i 1))

theorem flat_apply (X : (⟨3, ![8192, 64, 64]⟩ : Shape).Idx → EReal) (W : (⟨3, ![64, 4, 64]⟩ : Shape).Idx → EReal)
    (A : (⟨3, ![4, 64, 64]⟩ : Shape).Idx → EReal) (bias : (⟨2, ![1, 4096]⟩ : Shape).Idx → EReal)
    (n : Fin 8192) (f : Fin 4096) :
    flat X W A bias (ix2 n f) = mix (fun a b => X (ix3 n a b)) W A (hi f) (lo f) + bias (ix2 (0 : Fin 1) f) := rfl

/-- Four terms added one after the other onto zero are their sum over `Fin 4`. -/
theorem sum_four (T : Fin 4 → EReal) : (((0 + T 0) + T 1) + T 2) + T 3 = ∑ r : Fin 4, T r := by
  rw [Fin.sum_univ_four, zero_add]

end Cert.Kron

end
-- ==== Proof.KronPayload.lean ====
import proofs.«132670_j45921790329290_1_alg».proof.Proof.Gen.KernelIdeal.Frame
import proofs.«132670_j45921790329290_1_alg».proof.Proof.KronSpec
import Idealize.ShloMosaic.Lib.Pipeline.Value
import Idealize.ShloMosaic.Lib.ValueIdx
import Idealize.ShloMosaic.Lib.ValueLayout
import Idealize.ShloMosaic.PureOps.Ideal.Laws

/-
  The block the kernel body stores, read at an index.

  The body holds a 128 x 64 x 64 block `x0` (128 rows, each a 64 x 64 matrix), the factors `x1` (64 x 4 x 64) and
  `x2` (4 x 64 x 64) and the bias row `x3` (1 x 4096). For each rank `r` it flattens the block to 8192 x 64,
  multiplies by the 64 x 64 matrix `x1 · r ·`, transposes each row's 64 x 64 result, flattens again, multiplies by
  `x2 r · ·`, and adds the four results onto zero; the sum is transposed back, flattened to 128 x 4096 and the bias
  row added. At row `p` and feature `f = c2 * 64 + c` that is

      ∑ r, ∑ a, (∑ b, x0 p a b * x1 b r c) * x2 r a c2  +  x3 0 f .
-/

noncomputable section

open Idealize.ShloMosaic Idealize.ShloMosaic.ValueIdx
open scoped BigOperators

namespace Cert.KernelIdeal.KronPayload
open Cert.KernelIdeal Cert.KernelIdeal.Gen

/-! ## The matrix product read at an index -/

theorem lhs_axis0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_axis1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_axis0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_axis1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- An 8192 x 64 by 64 x 64 product into a zero accumulator, at row `q` and column `j`, is the sum over the
    contracted coordinate. -/
theorem mm_at (l : FVec Ideal S8192x64 .bf16) (rr : FVec Ideal S64x64 .bf16) (q : Fin 8192) (j : Fin 64) :
    matmul dot_S8192x64_S64x64_S8192x64_1_0_0_1_n_n none l rr (constant (F := Ideal) S8192x64 .f32 0x00000000#32) (ix2 q j)
      = ∑ k : Fin 64, l (ix2 q k) * rr (ix2 k j) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 q j) ((ValueIdx.contrEquiv1 dot_S8192x64_S64x64_S8192x64_1_0_0_1_n_n 64 rfl rfl).symm k) = ix2 q k := funext fun a => Fin.ext (by
    match a with
    | ⟨0, _⟩ => exact lhs_axis0 _ _
    | ⟨1, _⟩ => exact (lhs_axis1 _ _).trans hk)
  have er : dot_S8192x64_S64x64_S8192x64_1_0_0_1_n_n.rhsIdx (ix2 q j) ((ValueIdx.contrEquiv1 dot_S8192x64_S64x64_S8192x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-! ## The pieces of one rank's term -/

/-- Rank `o` of the second factor, a 64 x 64 matrix. -/
def wOf (o : Nat) (W : FVec Ideal S64x4x64 .bf16) (h : S64x4x64.Slices ![0, o, 0] S64x1x64) : FVec Ideal S64x64 .bf16 :=
  shapeCast S64x64 (extractStridedSlice S64x1x64 ![0, o, 0] W h) shapeCasts_S64x1x64_S64x64

/-- Rank `o` of the first factor, a 64 x 64 matrix. -/
def aOf (o : Nat) (A : FVec Ideal S4x64x64 .bf16) (h : S4x64x64.Slices ![o, 0, 0] S1x64x64) : FVec Ideal S64x64 .bf16 :=
  shapeCast S64x64 (extractStridedSlice S1x64x64 ![o, 0, 0] A h) shapeCasts_S1x64x64_S64x64

/-- The first product of one rank, each row's 64 x 64 result transposed, flattened again to 8192 x 64. -/
def lhsOf (X : FVec Ideal S8192x64 .bf16) (Wr : FVec Ideal S64x64 .bf16) : FVec Ideal S8192x64 .bf16 :=
  shapeCast S8192x64 (transpose S128x64x64 [0, 2, 1] (truncf .bf16 (shapeCast S128x64x64
    (matmul dot_S8192x64_S64x64_S8192x64_1_0_0_1_n_n none X Wr (constant (F := Ideal) S8192x64 .f32 0x00000000#32))
    shapeCasts_S8192x64_S128x64x64) bitsLt_bf16_f32) transposes_S128x64x64_p0_2_1_S128x64x64) shapeCasts_S128x64x64_S8192x64

/-- The second product of one rank, as a 128 x 64 x 64 array. -/
def termOf (L : FVec Ideal S8192x64 .bf16) (Ar : FVec Ideal S64x64 .bf16) : FVec Ideal S128x64x64 .f32 :=
  shapeCast S128x64x64 (matmul dot_S8192x64_S64x64_S8192x64_1_0_0_1_n_n none L Ar (constant (F := Ideal) S8192x64 .f32 0x00000000#32))
    shapeCasts_S8192x64_S128x64x64

theorem wOf_at (o : Nat) (W : FVec Ideal S64x4x64 .bf16) (h : S64x4x64.Slices ![0, o, 0] S64x1x64) (r : Fin 4) (hr : r.val = o)
    (b c : Fin 64) : wOf o W h (ix2 b c) = W (ix3 b r c) := by
  unfold wOf
  refine (shapeCast_apply _ _ _ (ix3 b (0 : Fin 1) c) ?_).trans ?_
  · rw [Shape.rowMajor_val_three, Shape.rowMajor_val_two]
    show (b.val * 1 + 0) * 64 + c.val = b.val * 64 + c.val
    omega
  · exact slice3_axis1_apply o W h b 0 c r (by show r.val = o + 0; omega)

theorem aOf_at (o : Nat) (A : FVec Ideal S4x64x64 .bf16) (h : S4x64x64.Slices ![o, 0, 0] S1x64x64) (r : Fin 4) (hr : r.val = o)
    (a c2 : Fin 64) : aOf o A h (ix2 a c2) = A (ix3 r a c2) := by
  unfold aOf
  refine (shapeCast_1ab_ab_apply _ _ a c2).trans ?_
  exact extractStridedSlice_apply _ A h _ (ix3 r a c2) (fun ax => by
    match ax with
    | ⟨0, _⟩ => show r.val = o + 0; omega
    | ⟨1, _⟩ => exact (Nat.zero_add _).symm
    | ⟨2, _⟩ => exact (Nat.zero_add _).symm)

/-- The input block cast to bf16 and flattened: row `p * 64 + a` is row `a` of the `p`-th matrix. -/
theorem flat_at (x : Vec Ideal S128x64x64 .f32) (p : Fin 128) (a b : Fin 64) (q : Fin 8192) (hq : q.val = p.val * 64 + a.val) :
    k0_pay2 (F := Ideal) x (ix2 q b) = x (ix3 p a b) := by
  unfold k0_pay2
  refine (shapeCast_apply _ _ _ (ix3 p a b) ?_).trans ?_
  · rw [Shape.rowMajor_val_three, Shape.rowMajor_val_two]
    show (p.val * 64 + a.val) * 64 + b.val = q.val * 64 + b.val
    omega
  · refine (truncf_apply (ψ := .bf16) _ bitsLt_bf16_f32 _).trans ?_
    rw [shapeCast_self]

theorem lhsOf_at (X : FVec Ideal S8192x64 .bf16) (Wr : FVec Ideal S64x64 .bf16) (p : Fin 128) (a c : Fin 64) (q q' : Fin 8192)
    (hq : q.val = p.val * 64 + c.val) (hq' : q'.val = p.val * 64 + a.val) :
    lhsOf X Wr (ix2 q a) = ∑ b : Fin 64, X (ix2 q' b) * Wr (ix2 b c) := by
  unfold lhsOf
  refine (shapeCast_apply _ _ _ (ix3 p c a) ?_).trans ?_
  · rw [Shape.rowMajor_val_three, Shape.rowMajor_val_two]
    show (p.val * 64 + c.val) * 64 + a.val = q.val * 64 + a.val
    omega
  refine (transpose_ix3_021_apply _ _ p c a).trans ?_
  refine (truncf_apply (ψ := .bf16) _ bitsLt_bf16_f32 _).trans ?_
  refine (shapeCast_apply _ _ _ (ix2 q' c) ?_).trans (mm_at X Wr q' c)
  rw [Shape.rowMajor_val_two, Shape.rowMajor_val_three]
  show q'.val * 64 + c.val = (p.val * 64 + a.val) * 64 + c.val
  omega

theorem termOf_at (L : FVec Ideal S8192x64 .bf16) (Ar : FVec Ideal S64x64 .bf16) (p : Fin 128) (c c2 : Fin 64) (q : Fin 8192)
    (hq : q.val = p.val * 64 + c.val) :
    termOf L Ar (ix3 p c c2) = ∑ a : Fin 64, L (ix2 q a) * Ar (ix2 a c2) := by
  unfold termOf
  refine (shapeCast_apply _ _ _ (ix2 q c2) ?_).trans (mm_at L Ar q c2)
  rw [Shape.rowMajor_val_two, Shape.rowMajor_val_three]
  show q.val * 64 + c2.val = (p.val * 64 + c.val) * 64 + c2.val
  omega

/-- Row `p * 64 + c` of the flattened arrays, as an index below 8192. -/
def row (p : Fin 128) (c : Fin 64) : Fin 8192 := ⟨p.val * 64 + c.val, by have := p.isLt; have := c.isLt; omega⟩

/-- One rank's term at `(p, c, c2)`: both contractions written out. -/
theorem rank_at (x : Vec Ideal S128x64x64 .f32) (W : FVec Ideal S64x4x64 .bf16) (A : FVec Ideal S4x64x64 .bf16) (o : Nat)
    (hW : S64x4x64.Slices ![0, o, 0] S64x1x64) (hA : S4x64x64.Slices ![o, 0, 0] S1x64x64) (r : Fin 4) (hr : r.val = o)
    (p : Fin 128) (c c2 : Fin 64) :
    termOf (lhsOf (k0_pay2 (F := Ideal) x) (wOf o W hW)) (aOf o A hA) (ix3 p c c2)
      = ∑ a : Fin 64, (∑ b : Fin 64, x (ix3 p a b) * W (ix3 b r c)) * A (ix3 r a c2) := by
  rw [termOf_at _ _ p c c2 (row p c) rfl]
  refine Finset.sum_congr rfl fun a _ => ?_
  rw [lhsOf_at _ _ p a c (row p c) (row p a) rfl rfl, aOf_at o A hA r hr]
  refine congrArg (· * A (ix3 r a c2)) (Finset.sum_congr rfl fun b _ => ?_)
  rw [flat_at x p a b (row p a) rfl, wOf_at o W hW r hr]

/-! ## The stored block -/

theorem pay3_eq (v : Vec Ideal S64x4x64 .bf16) : k0_pay3 (F := Ideal) v = v := shapeCast_self _ _
theorem pay4_eq (v : Vec Ideal S4x64x64 .bf16) : k0_pay4 (F := Ideal) v = v := shapeCast_self _ _
theorem pay5_eq (v : Vec Ideal S1x4096 .f32) : k0_pay5 (F := Ideal) v = v := shapeCast_self _ _

/-- The third rank's first product, as the kernel carries it. -/
theorem pay7_eq (v0 : Vec Ideal S128x64x64 .f32) (v4 : Vec Ideal S64x4x64 .bf16) :
    k0_pay7 (F := Ideal) v0 v4
      = lhsOf (k0_pay2 (F := Ideal) v0) (wOf 2 (k0_pay3 (F := Ideal) v4) slices_S64x4x64_o0_2_0_S64x1x64) := rfl

/-- The first two ranks added onto the zero array. -/
theorem pay6_eq (v0 : Vec Ideal S128x64x64 .f32) (v4 : Vec Ideal S64x4x64 .bf16) (v6 : Vec Ideal S4x64x64 .bf16) :
    k0_pay6 (F := Ideal) v0 v4 v6
      = addf (addf (broadcast S128x64x64 (Scalar.ofBits (F := Ideal) .f32 0x00000000#32))
            (termOf (lhsOf (k0_pay2 (F := Ideal) v0) (wOf 0 (k0_pay3 (F := Ideal) v4) slices_S64x4x64_o0_0_0_S64x1x64))
              (aOf 0 (k0_pay4 (F := Ideal) v6) slices_S4x64x64_o0_0_0_S1x64x64)))
          (termOf (lhsOf (k0_pay2 (F := Ideal) v0) (wOf 1 (k0_pay3 (F := Ideal) v4) slices_S64x4x64_o0_1_0_S64x1x64))
            (aOf 1 (k0_pay4 (F := Ideal) v6) slices_S4x64x64_o1_0_0_S1x64x64)) := rfl

/-- The last two ranks added, the sum transposed back and flattened to 128 x 4096, and the bias row added. -/
theorem pay1_eq (v3 : FVec Ideal S8192x64 .bf16) (v5 : FVec Ideal S64x4x64 .bf16) (v7 : FVec Ideal S4x64x64 .bf16)
    (v9 : FVec Ideal S1x4096 .f32) (v34 : FVec Ideal S128x64x64 .f32) (v41 : FVec Ideal S8192x64 .bf16) :
    k0_pay1 (F := Ideal) v3 v5 v7 v9 v34 v41
      = addf (shapeCast S128x4096 (transpose S128x64x64 [0, 2, 1]
            (addf (addf v34 (termOf v41 (aOf 2 v7 slices_S4x64x64_o2_0_0_S1x64x64)))
              (termOf (lhsOf v3 (wOf 3 v5 slices_S64x4x64_o0_3_0_S64x1x64)) (aOf 3 v7 slices_S4x64x64_o3_0_0_S1x64x64)))
            transposes_S128x64x64_p0_2_1_S128x64x64) shapeCasts_S128x64x64_S128x4096)
          (broadcastTo S128x4096 v9 broadcasts_S1x4096_S128x4096) := rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The block the kernel body stores, at row `p` and feature `f`. -/
theorem out_at (x0 : Vec Ideal S128x64x64 .f32) (x1 : Vec Ideal S64x4x64 .bf16) (x2 : Vec Ideal S4x64x64 .bf16)
    (x3 : Vec Ideal S1x4096 .f32) (p : Fin 128) (f : Fin 4096) :
    out0_4 (F := Ideal) x0 x1 x2 x3 (ix2 p f)
      = Cert.Kron.mix (fun a b => x0 (ix3 p a b)) x1 x2 (Cert.Kron.hi f) (Cert.Kron.lo f) + x3 (ix2 (0 : Fin 1) f) := by
  unfold out0_4
  rw [View.canon_unit_zero hz2]
  simp only [View.ld_unit_zero (S := S128x64x64) hz3, View.ld_unit_zero (S := S64x4x64) hz3,
    View.ld_unit_zero (S := S4x64x64) hz3, View.ld_unit_zero (S := S1x4096) hz2]
  rw [pay1_eq, pay6_eq, pay7_eq, pay3_eq, pay4_eq, pay5_eq]
  refine (addf_apply _ _ _).trans ?_
  refine congrArg₂ (· + ·) ?_ (broadcastTo_1b_ab_apply x3 _ p f)
  refine (shapeCast_apply _ _ _ (ix3 p (Cert.Kron.hi f) (Cert.Kron.lo f)) ?_).trans ?_
  · rw [Shape.rowMajor_val_three, Shape.rowMajor_val_two]
    show (p.val * 64 + f.val / 64) * 64 + f.val % 64 = p.val * 4096 + f.val
    omega
  refine (transpose_ix3_021_apply _ _ p (Cert.Kron.hi f) (Cert.Kron.lo f)).trans ?_
  simp only [addf_apply, broadcast_apply]
  rw [rank_at x0 x1 x2 0 _ _ 0 rfl, rank_at x0 x1 x2 1 _ _ 1 rfl, rank_at x0 x1 x2 2 _ _ 2 rfl, rank_at x0 x1 x2 3 _ _ 3 rfl]
  rw [show FloatOps.ofBits (F := Ideal) .f32 0x00000000#32 = 0 from Ideal.ofBits_zero_f32]
  exact Cert.Kron.sum_four (fun r : Fin 4 => ∑ a : Fin 64,
    (∑ b : Fin 64, x0 (ix3 p a b) * x1 (ix3 b r (Cert.Kron.lo f))) * x2 (ix3 r a (Cert.Kron.hi f)))

end Cert.KernelIdeal.KronPayload

end
-- ==== Proof.KronKernel.lean ====
/-
  The kernel's result as one function of the argument arrays.

  The grid has 64 points; point t works on rows 128 t .. 128 t + 127 of the 8192 x 64 x 64 input and writes rows
  128 t .. 128 t + 127 of the 8192 x 4096 output; the two factors and the bias are read whole at every point.
  Row p of the block that point t writes back is the mix (KronSpec) of input row 128 t + p plus the bias, so
  every point writes its own rows of ONE matrix, `Cert.Kron.flat` of the arrays the region finds; the 64 row
  blocks tile the output, so that matrix is what the output array holds after the region. The one host operation
  after the region regroups the 8192 rows as 4 x 2048.
-/
import proofs.«132670_j45921790329290_1_alg».proof.Proof.Gen.KernelIdeal.Frame
import proofs.«132670_j45921790329290_1_alg».proof.Proof.KronSpec
import Idealize.ShloMosaic.Lib.Pipeline.Value
import Idealize.ShloMosaic.Lib.ValueIdx
import Idealize.ShloMosaic.Lib.StableHlo.Run

set_option maxRecDepth 16384

noncomputable section

namespace Cert.KernelIdeal.KronValue

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- What the body's stored block holds at row p, feature f, as a function of the four blocks it loads. -/
def PayloadAt : Prop :=
  ∀ (x0 : Vec Ideal S128x64x64 .f32) (x1 : Vec Ideal S64x4x64 .bf16) (x2 : Vec Ideal S4x64x64 .bf16)
    (x3 : Vec Ideal S1x4096 .f32) (p : Fin 128) (f : Fin 4096),
    out0_4 (F := Ideal) x0 x1 x2 x3 (ix2 p f)
      = Cert.Kron.mix (fun a b => x0 (ix3 p a b)) x1 x2 (Cert.Kron.hi f) (Cert.Kron.lo f) + x3 (ix2 (0 : Fin 1) f)

/-! ## The arrays the region finds -/

abbrev arrX (c : Dev nD) : S8192x64x64.Idx → EReal := V m c main_v6
abbrev arrW (c : Dev nD) : S64x4x64.Idx → EReal := V m c main_v3
abbrev arrA (c : Dev nD) : S4x64x64.Idx → EReal := V m c main_v4
abbrev arrB (c : Dev nD) : S1x4096.Idx → EReal := V m c main_v5

/-- The matrix every point writes its rows of. -/
abbrev target (c : Dev nD) : S8192x4096.Idx → EReal := Cert.Kron.flat (arrX m c) (arrW m c) (arrA m c) (arrB m c)

/-! ## The index maps over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 64 := Nat.lt_of_lt_of_eq t.isLt N_0

/-- Row p of point t's input block is row 128 t + p of the input array. -/
theorem blkX_at (c : Dev nD) (t : Fin cfg0.N) (p : Fin 128) (a b : Fin 64) :
    iblk m c 0 t (ix3 p a b)
      = arrX m c (ix3 ⟨t.val * 128 + p.val, by have := t_lt t; have := p.isLt; omega⟩ a b) := by
  show V m c main_v6 (((cfg0.win 0).blk t).view.emb (ix3 p a b)) = _
  refine congrArg _ (funext fun ax => Fin.ext ?_)
  obtain ⟨e0, e1, e2, -⟩ := idx_facts t
  match ax with
  | ⟨0, _⟩ => show win0_0.index t (0 : Fin 3) * 128 + 1 * p.val = t.val * 128 + p.val; omega
  | ⟨1, _⟩ => show win0_0.index t (1 : Fin 3) * 64 + 1 * a.val = a.val; omega
  | ⟨2, _⟩ => show win0_0.index t (2 : Fin 3) * 64 + 1 * b.val = b.val; omega

/-- The second factor's block is the whole array at every point. -/
theorem blkW_eq (c : Dev nD) (t : Fin cfg0.N) : (iblk m c 1 t : S64x4x64.Idx → EReal) = arrW m c := by
  funext y
  show V m c main_v3 (((cfg0.win 1).blk t).view.emb y) = V m c main_v3 y
  refine congrArg _ (funext fun ax => Fin.ext ?_)
  obtain ⟨-, -, -, e0, e1, e2, -⟩ := idx_facts t
  match ax with
  | ⟨0, _⟩ => show win0_1.index t (0 : Fin 3) * 64 + 1 * (y 0).val = (y 0).val; omega
  | ⟨1, _⟩ => show win0_1.index t (1 : Fin 3) * 4 + 1 * (y 1).val = (y 1).val; omega
  | ⟨2, _⟩ => show win0_1.index t (2 : Fin 3) * 64 + 1 * (y 2).val = (y 2).val; omega

/-- So is the first factor's. -/
theorem blkA_eq (c : Dev nD) (t : Fin cfg0.N) : (iblk m c 2 t : S4x64x64.Idx → EReal) = arrA m c := by
  funext y
  show V m c main_v4 (((cfg0.win 2).blk t).view.emb y) = V m c main_v4 y
  refine congrArg _ (funext fun ax => Fin.ext ?_)
  obtain ⟨-, -, -, -, -, -, e0, e1, e2, -⟩ := idx_facts t
  match ax with
  | ⟨0, _⟩ => show win0_2.index t (0 : Fin 3) * 4 + 1 * (y 0).val = (y 0).val; omega
  | ⟨1, _⟩ => show win0_2.index t (1 : Fin 3) * 64 + 1 * (y 1).val = (y 1).val; omega
  | ⟨2, _⟩ => show win0_2.index t (2 : Fin 3) * 64 + 1 * (y 2).val = (y 2).val; omega

/-- And the bias's. -/
theorem blkB_eq (c : Dev nD) (t : Fin cfg0.N) : (iblk m c 3 t : S1x4096.Idx → EReal) = arrB m c := by
  funext y
  show V m c main_v5 (((cfg0.win 3).blk t).view.emb y) = V m c main_v5 y
  refine congrArg _ (funext fun ax => Fin.ext ?_)
  obtain ⟨-, -, -, -, -, -, -, -, -, e0, e1, -⟩ := idx_facts t
  match ax with
  | ⟨0, _⟩ => show win0_3.index t (0 : Fin 2) * 1 + 1 * (y 0).val = (y 0).val; omega
  | ⟨1, _⟩ => show win0_3.index t (1 : Fin 2) * 4096 + 1 * (y 1).val = (y 1).val; omega

/-! ## What a point writes back, and the whole output array -/

/-- Point t writes back rows 128 t .. 128 t + 127 of the target matrix. -/
theorem flushed_eq (hpay : PayloadAt) (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  funext j
  show out0_4 (F := Ideal) (iblk m c 0 t) (iblk m c 1 t) (iblk m c 2 t) (iblk m c 3 t) j
    = target m c (((cfg0.win 4).blk t).view.emb j)
  have hj0 : (j 0).val < 128 := (j 0).isLt
  have hj1 : (j 1).val < 4096 := (j 1).isLt
  have ht := t_lt t
  obtain ⟨-, -, -, -, -, -, -, -, -, -, -, e0, e1⟩ := idx_facts t
  have hemb : ((cfg0.win 4).blk t).view.emb j
      = ix2 (⟨t.val * 128 + (j 0).val, by omega⟩ : Fin 8192) (⟨(j 1).val, hj1⟩ : Fin 4096) := by
    funext ax; apply Fin.ext
    match ax with
    | ⟨0, _⟩ => show win0_4.index t (0 : Fin 2) * 128 + 1 * (j 0).val = t.val * 128 + (j 0).val; omega
    | ⟨1, _⟩ => show win0_4.index t (1 : Fin 2) * 4096 + 1 * (j 1).val = (j 1).val; omega
  have hjj : j = ix2 (⟨(j 0).val, hj0⟩ : Fin 128) (⟨(j 1).val, hj1⟩ : Fin 4096) := by
    funext ax; apply Fin.ext
    match ax with
    | ⟨0, _⟩ => rfl
    | ⟨1, _⟩ => rfl
  rw [hemb]
  show _ = Cert.Kron.flat (arrX m c) (arrW m c) (arrA m c) (arrB m c) (ix2 _ _)
  rw [Cert.Kron.flat_apply]
  refine (congrArg (out0_4 (F := Ideal) (iblk m c 0 t) (iblk m c 1 t) (iblk m c 2 t) (iblk m c 3 t)) hjj).trans ?_
  refine (hpay (iblk m c 0 t) (iblk m c 1 t) (iblk m c 2 t) (iblk m c 3 t) ⟨(j 0).val, hj0⟩ ⟨(j 1).val, hj1⟩).trans ?_
  have hrow : (fun a b => iblk m c 0 t (ix3 (⟨(j 0).val, hj0⟩ : Fin 128) a b))
      = fun a b => arrX m c (ix3 (⟨t.val * 128 + (j 0).val, by omega⟩ : Fin 8192) a b) :=
    funext fun a => funext fun b => blkX_at m c t ⟨(j 0).val, hj0⟩ a b
  rw [hrow, blkW_eq m c t, blkA_eq m c t, blkB_eq m c t]

/-- An index of the output is in point t's block iff each coordinate is in the block's range. -/
theorem mem_blk (t : Fin cfg0.N) (i : S8192x4096.Idx) :
    i ∈ ((cfg0.win 4).blk t).view.set ↔ ∀ a : Fin 2, win0_4.index t a * S128x4096.size a ≤ (i a).val ∧ (i a).val < win0_4.index t a * S128x4096.size a + S128x4096.size a := by
  show i ∈ ((View.whole main_v7).slice (win0_4.rect t)).set ↔ _
  rw [View.set_slice_whole, Rect.mem_set_unit]
  exact Iff.rfl

/-- The 64 row blocks tile the output: row n is in the block of point n / 128. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  let t : Fin cfg0.N := ⟨(i 0).val / 128, Nat.lt_of_lt_of_eq (by omega) N_0.symm⟩
  obtain ⟨-, -, -, -, -, -, -, -, -, -, -, e0, e1⟩ := idx_facts t
  have htv : t.val = (i 0).val / 128 := rfl
  refine ⟨t, flush0_4 t, ?_⟩
  rw [mem_blk]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 4096 ≤ (i 1).val ∧ (i 1).val < win0_4.index t (1 : Fin 2) * 4096 + 4096; omega

/-- The output array after the region is the target matrix. -/
theorem final (hpay : PayloadAt) (c : Dev nD) : (dats m 0 c).arrAt 4 cfg0.N = target m c :=
  (dats m 0 c).arrAt_eq_of_cover 4 (target m c) (fun t _ => flushed_eq m hpay c t) cover

/-! ## The arrays the region finds, from the launch contents -/

/-- The input is regrouped from 4 x 2048 x 4096 to 8192 rows of 64 x 64. -/
theorem arrX_eq (c : Dev nD) : arrX m c
    = shapeCast S8192x64x64 (m ((c : Thread nD τ).loc main_arg0)) shapeCasts_S4x2048x4096_S8192x64x64 := by
  show StableHlo.after hostOps0 (fun b => m (c, b)) (Proc.devRef .tc main_v6) = _
  after_results
  rfl

/-- The second factor is transposed to put the rank last, flattened to 64 x 256 and regrouped as 64 x 4 x 64. -/
theorem arrW_eq (c : Dev nD) : arrW m c
    = truncf (F := Ideal) .bf16 (shapeCast S64x4x64 (shapeCast S64x256 (transpose S64x64x4 [1, 2, 0] (m ((c : Thread nD τ).loc main_arg2))
        transposes_S4x64x64_S64x64x4_1_2_0) shapeCasts_S64x64x4_S64x256) shapeCasts_S64x256_S64x4x64) bitsLt_bf16_f32 := by
  show StableHlo.after hostOps0 (fun b => m (c, b)) (Proc.devRef .tc main_v3) = _
  after_results
  rfl

/-- The first factor only changes format. -/
theorem arrA_eq (c : Dev nD) : arrA m c = truncf (F := Ideal) .bf16 (m ((c : Thread nD τ).loc main_arg1)) bitsLt_bf16_f32 := by
  show StableHlo.after hostOps0 (fun b => m (c, b)) (Proc.devRef .tc main_v4) = _
  after_results

/-- The bias becomes one row. -/
theorem arrB_eq (c : Dev nD) : arrB m c = shapeCast S1x4096 (m ((c : Thread nD τ).loc main_arg3)) shapeCasts_S4096_S1x4096 := by
  show StableHlo.after hostOps0 (fun b => m (c, b)) (Proc.devRef .tc main_v5) = _
  after_results
  rfl

/-! ## The operation after the region, and the run -/

/-- The result buffer holds the target matrix with its rows regrouped 4 x 2048. -/
theorem tail_eq (hpay : PayloadAt) (c : Dev nD) :
    Pipeline.afterTail₀ cfgs (dats m) 0 (V0 m) [hostOps1] c main_v8
      = shapeCast S4x2048x4096 (target m c) shapeCasts_S8192x4096_S4x2048x4096 := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = target m c :=
    (Pipeline.withArrays_arr spec0 launch0.win.arr_inj c _ _ 4).trans (final m hpay c)
  rw [hw]
  rfl

/-- Every weakly fair execution of the kernel program terminates with the result buffer at the target matrix, rows
    regrouped 4 x 2048, and the four arguments as launched. -/
theorem run (hpay : PayloadAt) :
    θ_run defs (onTc (τ := τ) (main (F := Ideal))) ⟨m, fun _ => 0, ρ⟩ fun r => ∀ c : Dev nD,
      r.2.mem ((c.tc : Thread nD τ).loc main_v8) = shapeCast S4x2048x4096 (target m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m hpay c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KronValue

end
-- ==== Proof.KronRef.lean ====
import proofs.«132670_j45921790329290_1_alg».proof.Proof.Gen.ReferenceIdeal.Read
import proofs.«132670_j45921790329290_1_alg».proof.Proof.KronSpec

/-!
  The reference program read at an index.

  Its input row `n` is a 64 x 64 matrix `row a b`; the second factor, transposed and flattened, is a 64 x 256 array
  whose column `r * 64 + c` belongs to rank `r`. The program contracts `b`, regroups the 256 columns as 4 x 64, moves
  the rank to the front, contracts `a` against the first factor, adds the four ranks onto zero, and transposes the two
  remaining 64-axes, so that at row `n` and feature `f = c2 * 64 + c` it holds

      ∑ r, ∑ a, (∑ b, row a b * W b r c) * A r a c2 ,

  and the bias at `f` is added. Every reshape and transpose in between only moves coordinates; each is followed here on
  an index written by its coordinates, where it is a statement about division and remainder by 64, 256 and 4096.
-/

noncomputable section
open Idealize.ShloMosaic Idealize.ShloMosaic.ValueIdx
open scoped BigOperators

namespace Cert.ReferenceIdeal.KronRef
open Cert.ReferenceIdeal Cert.ReferenceIdeal.Gen Cert.ReferenceIdeal.Read

/-- Row `n` and column `c` of an 8192 x 64 grid, at the row-major position `n * 64 + c`. -/
def pos64 (n : Fin 8192) (c : Fin 64) : Fin 524288 :=
  ⟨n.val * 64 + c.val, by have hn : n.val < 8192 := n.isLt; have hc : c.val < 64 := c.isLt; omega⟩

/-- Rank `r` and column `c` of a 4 x 64 grid, at the row-major position `r * 64 + c`. -/
def pos256 (r : Fin 4) (c : Fin 64) : Fin 256 :=
  ⟨r.val * 64 + c.val, by have hr : r.val < 4 := r.isLt; have hc : c.val < 64 := c.isLt; omega⟩

/-! Each layout step of the reference, followed on an index written by coordinates. -/

/-- The feature axis split in two: `f = hi * 64 + lo`. -/
theorem idx11_ix (n : Fin 8192) (f : Fin 4096) :
    idx_main_v11 (ix2 n f) = ix3 n (Cert.Kron.hi f) (Cert.Kron.lo f) := by
  have hn : n.val < 8192 := n.isLt
  have hf : f.val < 4096 := f.isLt
  funext ax; apply Fin.ext
  match ax with
  | ⟨0, _⟩ => show (n.val * 4096 + f.val) / 4096 = n.val; omega
  | ⟨1, _⟩ => show (n.val * 4096 + f.val) / 64 % 64 = f.val / 64; omega
  | ⟨2, _⟩ => show (n.val * 4096 + f.val) % 64 = f.val % 64; omega

/-- The transpose of the last two axes. -/
theorem idx10_ix (n : Fin 8192) (c2 c : Fin 64) : idx_main_v10 (ix3 n c2 c) = ix3 n c c2 := by
  funext ax; apply Fin.ext
  match ax with
  | ⟨0, _⟩ => rfl
  | ⟨1, _⟩ => rfl
  | ⟨2, _⟩ => rfl

/-- The first two axes merged. -/
theorem idx9_ix (n : Fin 8192) (c c2 : Fin 64) : idx_main_v9 (ix3 n c c2) = ix2 (pos64 n c) c2 := by
  have hn : n.val < 8192 := n.isLt
  have hc : c.val < 64 := c.isLt
  have hc2 : c2.val < 64 := c2.isLt
  funext ax; apply Fin.ext
  match ax with
  | ⟨0, _⟩ => show ((n.val * 64 + c.val) * 64 + c2.val) / 64 = n.val * 64 + c.val; omega
  | ⟨1, _⟩ => show ((n.val * 64 + c.val) * 64 + c2.val) % 64 = c2.val; omega

/-- The summed rank put back in front. -/
theorem idx8_ix (m : Fin 524288) (c2 : Fin 64) (r : Fin 4) : idx_main_v8 (ix2 m c2) r = ix3 r m c2 := by
  funext ax; apply Fin.ext
  match ax with
  | ⟨0, _⟩ => rfl
  | ⟨1, _⟩ => rfl
  | ⟨2, _⟩ => rfl

/-- The second product's left operand at the contracted coordinate. -/
theorem lidx7_ix (r : Fin 4) (m : Fin 524288) (c2 a : Fin 64) : lidx_main_v7 (ix3 r m c2) a = ix3 r m a := by
  funext ax; apply Fin.ext
  match ax with
  | ⟨0, _⟩ => rfl
  | ⟨1, _⟩ => rfl
  | ⟨2, _⟩ => rfl

/-- The second product's right operand at the contracted coordinate. -/
theorem ridx7_ix (r : Fin 4) (m : Fin 524288) (c2 a : Fin 64) : ridx_main_v7 (ix3 r m c2) a = ix3 r a c2 := by
  funext ax; apply Fin.ext
  match ax with
  | ⟨0, _⟩ => rfl
  | ⟨1, _⟩ => rfl
  | ⟨2, _⟩ => rfl

/-- The merged row axis split again. -/
theorem idx6_ix (r : Fin 4) (n : Fin 8192) (c a : Fin 64) : idx_main_v6 (ix3 r (pos64 n c) a) = ix4 r n c a := by
  have hr : r.val < 4 := r.isLt
  have hn : n.val < 8192 := n.isLt
  have hc : c.val < 64 := c.isLt
  have ha : a.val < 64 := a.isLt
  funext ax; apply Fin.ext
  match ax with
  | ⟨0, _⟩ => show ((r.val * 524288 + (n.val * 64 + c.val)) * 64 + a.val) / 33554432 = r.val; omega
  | ⟨1, _⟩ => show ((r.val * 524288 + (n.val * 64 + c.val)) * 64 + a.val) / 4096 % 8192 = n.val; omega
  | ⟨2, _⟩ => show ((r.val * 524288 + (n.val * 64 + c.val)) * 64 + a.val) / 64 % 64 = c.val; omega
  | ⟨3, _⟩ => show ((r.val * 524288 + (n.val * 64 + c.val)) * 64 + a.val) % 64 = a.val; omega

/-- The four-axis transpose. -/
theorem idx5_ix (r : Fin 4) (n : Fin 8192) (c a : Fin 64) : idx_main_v5 (ix4 r n c a) = ix4 n a r c := by
  funext ax; apply Fin.ext
  match ax with
  | ⟨0, _⟩ => rfl
  | ⟨1, _⟩ => rfl
  | ⟨2, _⟩ => rfl
  | ⟨3, _⟩ => rfl

/-- The last two axes merged. -/
theorem idx4_ix (n : Fin 8192) (a : Fin 64) (r : Fin 4) (c : Fin 64) :
    idx_main_v4 (ix4 n a r c) = ix3 n a (pos256 r c) := by
  have hr : r.val < 4 := r.isLt
  have hn : n.val < 8192 := n.isLt
  have hc : c.val < 64 := c.isLt
  have ha : a.val < 64 := a.isLt
  funext ax; apply Fin.ext
  match ax with
  | ⟨0, _⟩ => show (((n.val * 64 + a.val) * 4 + r.val) * 64 + c.val) / 16384 = n.val; omega
  | ⟨1, _⟩ => show (((n.val * 64 + a.val) * 4 + r.val) * 64 + c.val) / 256 % 64 = a.val; omega
  | ⟨2, _⟩ => show (((n.val * 64 + a.val) * 4 + r.val) * 64 + c.val) % 256 = r.val * 64 + c.val; omega

/-- The first product's left operand at the contracted coordinate. -/
theorem lidx3_ix (n : Fin 8192) (a : Fin 64) (m : Fin 256) (b : Fin 64) : lidx_main_v3 (ix3 n a m) b = ix3 n a b := by
  funext ax; apply Fin.ext
  match ax with
  | ⟨0, _⟩ => rfl
  | ⟨1, _⟩ => rfl
  | ⟨2, _⟩ => rfl

/-- The first product's right operand at the contracted coordinate. -/
theorem ridx3_ix (n : Fin 8192) (a : Fin 64) (m : Fin 256) (b : Fin 64) : ridx_main_v3 (ix3 n a m) b = ix2 b m := by
  funext ax; apply Fin.ext
  match ax with
  | ⟨0, _⟩ => rfl
  | ⟨1, _⟩ => rfl

/-- A 64 x 256 array viewed as 64 x 4 x 64 reads, at `(b, r, c)`, the array at `(b, r * 64 + c)`. -/
theorem cast_64_4_64_apply {α : Type} (y : S64x256.Idx → α) (h1 : S64x256.ShapeCasts ⟨3, ![64, 4, 64]⟩)
    (b : Fin 64) (r : Fin 4) (c : Fin 64) :
    shapeCast ⟨3, ![64, 4, 64]⟩ y h1 (ix3 b r c) = y (ix2 b (pos256 r c)) :=
  shapeCast_apply y h1 _ _ (by
    rw [Shape.rowMajor_val_two, Shape.rowMajor_val_three]
    show b.val * 256 + (r.val * 64 + c.val) = (b.val * 4 + r.val) * 64 + c.val
    omega)

/-- The reference before the bias, read at row `n` and feature `f`: the two contractions summed over the four ranks. -/
theorem ref_flat (x : (⟨S4x2048x4096, .f32⟩ : BufTy).Contents (Elt Ideal)) (A B : (⟨S4x64x64, .f32⟩ : BufTy).Contents (Elt Ideal))
    (h1 : S64x256.ShapeCasts ⟨3, ![64, 4, 64]⟩) (n : Fin 8192) (f : Fin 4096) :
    val_main_v11 (F := Ideal) x A B (ix2 n f)
      = Cert.Kron.mix (fun a b => val_main_v0 (F := Ideal) x (ix3 n a b)) (shapeCast ⟨3, ![64, 4, 64]⟩ (val_main_v2 (F := Ideal) B) h1) A
          (Cert.Kron.hi f) (Cert.Kron.lo f) := by
  rw [val_main_v11_apply, idx11_ix, val_main_v10_apply, idx10_ix, val_main_v9_apply, idx9_ix, val_main_v8_apply,
    val_main_cst_apply, Ideal.ofBits_def, Ideal.ofBits_zero_f32, zero_add]
  unfold Cert.Kron.mix
  refine Finset.sum_congr rfl fun r _ => ?_
  rw [idx8_ix, val_main_v7_apply]
  refine Finset.sum_congr rfl fun a _ => ?_
  rw [lidx7_ix, ridx7_ix, val_main_v6_apply, idx6_ix, val_main_v5_apply, idx5_ix, val_main_v4_apply, idx4_ix,
    val_main_v3_apply]
  refine congrArg (· * A (ix3 r a (Cert.Kron.hi f))) (Finset.sum_congr rfl fun b _ => ?_)
  rw [lidx3_ix, ridx3_ix, cast_64_4_64_apply]

/-- The reference's result is the matrix of mixed rows plus the bias, viewed as 4 x 2048 x 4096. -/
theorem ref_eq (x : (⟨S4x2048x4096, .f32⟩ : BufTy).Contents (Elt Ideal)) (A B : (⟨S4x64x64, .f32⟩ : BufTy).Contents (Elt Ideal))
    (bias : (⟨S4096, .f32⟩ : BufTy).Contents (Elt Ideal))
    (h1 : S64x256.ShapeCasts ⟨3, ![64, 4, 64]⟩) (h2 : S4096.ShapeCasts ⟨2, ![1, 4096]⟩) (h3 : S8192x4096.ShapeCasts S4x2048x4096) :
    val_main_v15 (F := Ideal) x A B bias
      = shapeCast S4x2048x4096 (Cert.Kron.flat (val_main_v0 (F := Ideal) x) (shapeCast ⟨3, ![64, 4, 64]⟩ (val_main_v2 (F := Ideal) B) h1) A
          (shapeCast ⟨2, ![1, 4096]⟩ bias h2)) h3 := by
  funext i
  have hi0 : (i 0).val < 4 := (i 0).isLt
  have hi1 : (i 1).val < 2048 := (i 1).isLt
  have hi2 : (i 2).val < 4096 := (i 2).isLt
  -- the row and the feature of the flat position of `i`
  obtain ⟨n, f, hf, e⟩ : ∃ (n : Fin 8192) (f : Fin 4096),
      f.val = (((i 0).val * 2048 + (i 1).val) * 4096 + (i 2).val) % 4096 ∧ idx_main_v12 i = ix2 n f :=
    ⟨idx_main_v12 i 0, idx_main_v12 i 1, rfl, ValueIdx.eq_ix2 (idx_main_v12 i)⟩
  -- the bias as a 1 x 4096 array at the feature is the bias at the feature coordinate of `i`
  have hb : shapeCast ⟨2, ![1, 4096]⟩ bias h2 (ix2 (0 : Fin 1) f) = bias (idx_main_v13 (idx_main_v14 i)) :=
    shapeCast_apply bias h2 _ _ (by
      rw [Shape.rowMajor_val_one, Shape.rowMajor_val_two]
      show (i 2).val = 0 * 4096 + f.val
      omega)
  rw [val_main_v15_apply, val_main_v12_apply, val_main_v14_apply, val_main_v13_apply, Ideal.addf_def]
  refine Eq.trans ?_ (shapeCast_apply _ h3 i (idx_main_v12 i) (by
    rewrite [Shape.rowMajor_val_two, Shape.rowMajor_val_three]
    show (((i 0).val * 2048 + (i 1).val) * 4096 + (i 2).val) / 4096 * 4096 + (((i 0).val * 2048 + (i 1).val) * 4096 + (i 2).val) % 4096 = ((i 0).val * 2048 + (i 1).val) * 4096 + (i 2).val
    omega)).symm
  rw [e, Cert.Kron.flat_apply, ref_flat x A B h1, hb]

end Cert.ReferenceIdeal.KronRef
end
-- ==== Proof.lean ====
/-
  A rank-4 Kronecker-factored linear map, kernel against reference, over the extended reals.

  Each of the 8192 input rows is a 64 x 64 matrix. With the second factor given per rank r as a 64 x 64 matrix
  W · r · (the flattened 64 x 256 array regrouped as 64 x 4 x 64) and the first as A r · ·, both programs compute, at row
  n and feature f = c2 * 64 + c,

      ∑ r, ∑ a, (∑ b, x n a b * W b r c) * A r a c2 + bias f

  (Proof/KronSpec.lean). The kernel does it 128 rows at a time, the four ranks added one after the other onto zero;
  the reference does it for all rows at once and adds the ranks by one reduction onto zero. Both sums are the sum over
  the four ranks (addition of extended reals is associative and commutative, and adding onto zero changes
  nothing), every change of float format is the identity, and everything else in either program only moves
  coordinates. So no finiteness of the inputs is used.

  The kernel's side: Proof/KronPayload.lean reads the stored block at an index, Proof/KronKernel.lean shows every grid
  point writes its rows of one matrix, that the row blocks tile the output, and follows the regrouping after the
  region. The reference's side: Proof/KronRef.lean reads its result at an index. Here the two are put side by side.
-/
import proofs.«132670_j45921790329290_1_alg».proof.Defs
import proofs.«132670_j45921790329290_1_alg».proof.Proof.Gen.Kernel
import proofs.«132670_j45921790329290_1_alg».proof.Proof.Gen.Kernel.Skeleton
import proofs.«132670_j45921790329290_1_alg».proof.Proof.Gen.Kernel.Launch
import proofs.«132670_j45921790329290_1_alg».proof.Proof.Gen.Kernel.Points
import proofs.«132670_j45921790329290_1_alg».proof.Proof.Gen.Kernel.Frame
import proofs.«132670_j45921790329290_1_alg».proof.Proof.Gen.KernelIdeal
import proofs.«132670_j45921790329290_1_alg».proof.Proof.Gen.KernelIdeal.Skeleton
import proofs.«132670_j45921790329290_1_alg».proof.Proof.Gen.KernelIdeal.Launch
import proofs.«132670_j45921790329290_1_alg».proof.Proof.Gen.KernelIdeal.Points
import proofs.«132670_j45921790329290_1_alg».proof.Proof.Gen.KernelIdeal.Frame
import proofs.«132670_j45921790329290_1_alg».proof.Proof.Gen.ReferenceIdeal
import proofs.«132670_j45921790329290_1_alg».proof.Proof.Gen.Pre_finite_inputs
import proofs.«132670_j45921790329290_1_alg».proof.Proof.Gen.ReferenceIdeal.Run
import proofs.«132670_j45921790329290_1_alg».proof.Proof.Gen.ReferenceIdeal.Read
import proofs.«132670_j45921790329290_1_alg».proof.Proof.KronSpec
import proofs.«132670_j45921790329290_1_alg».proof.Proof.KronPayload
import proofs.«132670_j45921790329290_1_alg».proof.Proof.KronKernel
import proofs.«132670_j45921790329290_1_alg».proof.Proof.KronRef
import Idealize.ShloMosaic.Adequacy
import Idealize.ShloMosaic.Init

noncomputable section

namespace Cert.Proof

open Idealize.ShloMosaic Idealize.ShloMosaic.TcCoe Idealize.SL.Sem

/-- The word-level kernel terminates without a fault and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations; its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The matrix the kernel's output array holds, written over the arguments as launched, with its rows regrouped
    4 x 2048, is the reference's result: the same regrouped input, the same regrouped second factor, the first factor and
    the bias row, in the same function. -/
theorem result_eq (x : Cert.KernelIdeal.S4x2048x4096.Idx → EReal) (A B : Cert.KernelIdeal.S4x64x64.Idx → EReal)
    (bias : Cert.KernelIdeal.S4096.Idx → EReal) :
    Cert.ReferenceIdeal.Read.val_main_v15 (F := Ideal) x A B bias
      = shapeCast Cert.KernelIdeal.S4x2048x4096
          (Cert.Kron.flat
            (shapeCast Cert.KernelIdeal.S8192x64x64 x Cert.KernelIdeal.Gen.shapeCasts_S4x2048x4096_S8192x64x64)
            (truncf (F := Ideal) .bf16 (shapeCast Cert.KernelIdeal.S64x4x64 (shapeCast Cert.KernelIdeal.S64x256
              (transpose Cert.KernelIdeal.S64x64x4 [1, 2, 0] B Cert.KernelIdeal.Gen.transposes_S4x64x64_S64x64x4_1_2_0)
              Cert.KernelIdeal.Gen.shapeCasts_S64x64x4_S64x256) Cert.KernelIdeal.Gen.shapeCasts_S64x256_S64x4x64)
              Cert.KernelIdeal.Gen.bitsLt_bf16_f32)
            (truncf (F := Ideal) .bf16 A Cert.KernelIdeal.Gen.bitsLt_bf16_f32)
            (shapeCast Cert.KernelIdeal.S1x4096 bias Cert.KernelIdeal.Gen.shapeCasts_S4096_S1x4096))
          Cert.KernelIdeal.Gen.shapeCasts_S8192x4096_S4x2048x4096 := by
  rw [Cert.ReferenceIdeal.KronRef.ref_eq x A B bias Cert.KernelIdeal.Gen.shapeCasts_S64x256_S64x4x64
    Cert.KernelIdeal.Gen.shapeCasts_S4096_S1x4096 Cert.KernelIdeal.Gen.shapeCasts_S8192x4096_S4x2048x4096]
  rfl

/-- From memories that agree on the four arguments both programs end with the same result. -/
theorem algebraic : Cert.algebraic_KernelIdeal_ReferenceIdeal := by
  intro m ρ m' ρ' _ hagree
  refine ⟨fun c => shapeCast Cert.KernelIdeal.S4x2048x4096 (Cert.KernelIdeal.KronValue.target m c)
      Cert.KernelIdeal.Gen.shapeCasts_S8192x4096_S4x2048x4096,
    Cert.KernelIdeal.KronValue.run m ρ Cert.KernelIdeal.KronPayload.out_at, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v15_eq]
  show _ = shapeCast Cert.KernelIdeal.S4x2048x4096
    (Cert.Kron.flat (Cert.KernelIdeal.KronValue.arrX m c) (Cert.KernelIdeal.KronValue.arrW m c)
      (Cert.KernelIdeal.KronValue.arrA m c) (Cert.KernelIdeal.KronValue.arrB m c))
    Cert.KernelIdeal.Gen.shapeCasts_S8192x4096_S4x2048x4096
  rw [Cert.KernelIdeal.KronValue.arrX_eq m c, Cert.KernelIdeal.KronValue.arrW_eq m c,
    Cert.KernelIdeal.KronValue.arrA_eq m c, Cert.KernelIdeal.KronValue.arrB_eq m c]
  exact result_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
